-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S128x40 .f32) (main_arg10 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg9
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x40 .f32) (main_arg9 : FVec F S128x40 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S128x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 60
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x40, .f32⟩
  | .hbm, ⟨59, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S128x40, .f32⟩
  | .local _ .vmem, ⟨24, _⟩ => ⟨S1x40, .f32⟩
  | .local _ .vmem, ⟨25, _⟩ => ⟨S5000x40, .f32⟩
  | .local _ .vmem, ⟨26, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x40, .f32⟩
  | .hbm, ⟨73, _⟩ => ⟨S1x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.DenseLayer.lean ====
/-
  One dense layer of the graph convolution, as mathematics over the extended reals.
  For an aggregated array `a` and a node array `h` (both M×K), weights `wr`, `ws` (both K×N) and a bias `b` (N), the
  layer's entry at row r and column q is
      (∑ₖ a(r,k)·wr(k,q) + ∑ₖ h(r,k)·ws(k,q)) + b(q),
  optionally followed by the maximum with 0. Two spellings of it are read at an index here:
  the blockwise one (two matrix products into zero accumulators, added, then the bias row broadcast down the rows), and
  the whole-array one (a host matrix product, plus the bias broadcast, plus a second host matrix product).
  They differ only in the order of the three summands, and addition of extended reals is commutative and associative
  (no cancellation is used, so no summand need be finite).
-/
import Idealize.ShloMosaic.PureOps.Ideal.Laws
import Idealize.ShloMosaic.Lib.ValueIdx
import Idealize.ShloMosaic.Lib.Pipeline.Value
import proofs.«120529_j46170898432062_1_alg».proof.Proof.LibPlainDot

noncomputable section

open scoped BigOperators

namespace DenseLayer

open Idealize.ShloMosaic Idealize.ShloMosaic.ValueIdx

variable (M K N : Nat)

/-- The layer's entry at row `r`, column `q`. -/
def entry (a h : (⟨2, ![M, K]⟩ : Shape).Idx → EReal) (wr ws : (⟨2, ![K, N]⟩ : Shape).Idx → EReal) (b : Fin N → EReal)
    (r : Fin M) (q : Fin N) : EReal :=
  (∑ k : Fin K, a (ix2 (n0 := M) (n1 := K) r k) * wr (ix2 (n0 := K) (n1 := N) k q)
    + ∑ k : Fin K, h (ix2 (n0 := M) (n1 := K) r k) * ws (ix2 (n0 := K) (n1 := N) k q)) + b q

/-- The layer as an M×N array. -/
def layer (a h : (⟨2, ![M, K]⟩ : Shape).Idx → EReal) (wr ws : (⟨2, ![K, N]⟩ : Shape).Idx → EReal) (b : Fin N → EReal) :
    (⟨2, ![M, N]⟩ : Shape).Idx → EReal :=
  fun j => entry M K N a h wr ws b ⟨(j 0).val, (j 0).isLt⟩ ⟨(j 1).val, (j 1).isLt⟩

/-- The layer followed by the maximum with 0. -/
def layerRelu (a h : (⟨2, ![M, K]⟩ : Shape).Idx → EReal) (wr ws : (⟨2, ![K, N]⟩ : Shape).Idx → EReal) (b : Fin N → EReal) :
    (⟨2, ![M, N]⟩ : Shape).Idx → EReal :=
  fun j => max (layer M K N a h wr ws b j) 0

/-- A 1×N row broadcast down M rows reads, at (r, q), the row's entry q. -/
theorem row_broadcast_apply (x : (⟨2, ![1, N]⟩ : Shape).Idx → EReal) (hb : (⟨2, ![1, N]⟩ : Shape).Broadcasts ⟨2, ![M, N]⟩)
    (j : (⟨2, ![M, N]⟩ : Shape).Idx) :
    broadcastTo ⟨2, ![M, N]⟩ x hb j = x (ix2 (n0 := 1) (n1 := N) ⟨0, Nat.one_pos⟩ ⟨(j 1).val, (j 1).isLt⟩) := by
  refine broadcastTo_apply x hb j _ fun a => ?_
  match a with
  | ⟨0, _⟩ => exact (if_pos rfl).symm
  | ⟨1, _⟩ =>
    show (j 1).val = if N = 1 then 0 else (j 1).val
    split
    · next h1 => have := idx2_lt1 j; omega
    · rfl

/-- The blockwise spelling at an index: two products into zero accumulators (their operands passed through a
    narrowing of the float format, the identity on extended reals), added, plus the bias row. -/
theorem blockwise_apply (x0 x1 : FVec Ideal ⟨2, ![M, K]⟩ .f32) (x2 x3 : FVec Ideal ⟨2, ![K, N]⟩ .f32)
    (x4 : FVec Ideal ⟨2, ![1, N]⟩ .f32) (hb : (⟨2, ![1, N]⟩ : Shape).Broadcasts ⟨2, ![M, N]⟩)
    (hlt : FTy.bf16.bits < FTy.f32.bits) (j : (⟨2, ![M, N]⟩ : Shape).Idx) :
    addf (addf (matmul (DotDims.plain M K N) none (truncf .bf16 x0 hlt) (truncf .bf16 x2 hlt) (constant ⟨2, ![M, N]⟩ .f32 0x00000000#32))
        (matmul (DotDims.plain M K N) none (truncf .bf16 x1 hlt) (truncf .bf16 x3 hlt) (constant ⟨2, ![M, N]⟩ .f32 0x00000000#32)))
      (broadcastTo ⟨2, ![M, N]⟩ x4 hb) j
    = layer M K N x0 x1 x2 x3 (fun q => x4 (ix2 (n0 := 1) (n1 := N) ⟨0, Nat.one_pos⟩ q)) j := by
  show (matmul (DotDims.plain M K N) none (truncf .bf16 x0 hlt) (truncf .bf16 x2 hlt) (constant ⟨2, ![M, N]⟩ .f32 0x00000000#32) j
      + matmul (DotDims.plain M K N) none (truncf .bf16 x1 hlt) (truncf .bf16 x3 hlt) (constant ⟨2, ![M, N]⟩ .f32 0x00000000#32) j)
      + broadcastTo ⟨2, ![M, N]⟩ x4 hb j = _
  rw [row_broadcast_apply M N x4 hb j]
  unfold layer entry
  refine congrArg₂ (· + ·) (congrArg₂ (· + ·) ?_ ?_) rfl
  · exact PlainDot.matmul_zero_apply M K N (truncf .bf16 x0 hlt) (truncf .bf16 x2 hlt) j
  · exact PlainDot.matmul_zero_apply M K N (truncf .bf16 x1 hlt) (truncf .bf16 x3 hlt) j

/-- A bias vector broadcast to a 1×N row and then down M rows reads, at (r, q), the vector's entry q. -/
theorem bias_broadcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (j : (⟨2, ![M, N]⟩ : Shape).Idx) :
    broadcastInDim ⟨2, ![M, N]⟩ ![0, 1] h2 (broadcastInDim ⟨2, ![1, N]⟩ ![1] h1 b) j
      = b (ix1 (n := N) ⟨(j 1).val, (j 1).isLt⟩) := by
  have e2 : broadcastInDim ⟨2, ![M, N]⟩ ![0, 1] h2 (broadcastInDim ⟨2, ![1, N]⟩ ![1] h1 b) j
      = broadcastInDim ⟨2, ![1, N]⟩ ![1] h1 b (ix2 (n0 := 1) (n1 := N) ⟨0, Nat.one_pos⟩ ⟨(j 1).val, (j 1).isLt⟩) := by
    refine broadcastInDim_apply (s := ⟨2, ![1, N]⟩) (t := ⟨2, ![M, N]⟩) ![0, 1] h2 (broadcastInDim ⟨2, ![1, N]⟩ ![1] h1 b) j _ fun a => ?_
    match a with
    | ⟨0, _⟩ => exact (if_pos rfl).symm
    | ⟨1, _⟩ =>
      show (j 1).val = if N = 1 then 0 else (j 1).val
      split
      · next h1 => have := idx2_lt1 j; omega
      · rfl
  rw [e2]
  refine broadcastInDim_apply (s := ⟨1, ![N]⟩) (t := ⟨2, ![1, N]⟩) ![1] h1 b _ _ fun a => ?_
  match a with
  | ⟨0, _⟩ =>
    show (j 1).val = if N = 1 then 0 else (j 1).val
    split
    · next h1 => have := idx2_lt1 j; omega
    · rfl

/-- The whole-array spelling at an index: a host product, plus the broadcast bias, plus a second host product. -/
theorem wholearray_apply (sched : HostSchedule) (a h : FVec Ideal ⟨2, ![M, K]⟩ .f32) (wr ws : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (j : (⟨2, ![M, N]⟩ : Shape).Idx) :
    addf (addf (FloatOps.dotGeneral (DotDims.plain M K N) none sched a wr)
        (broadcastInDim ⟨2, ![M, N]⟩ ![0, 1] h2 (broadcastInDim ⟨2, ![1, N]⟩ ![1] h1 b)))
      (FloatOps.dotGeneral (DotDims.plain M K N) none sched h ws) j
    = layer M K N a h wr ws (fun q => b (ix1 (n := N) q)) j := by
  show (FloatOps.dotGeneral (DotDims.plain M K N) none sched a wr j
      + broadcastInDim ⟨2, ![M, N]⟩ ![0, 1] h2 (broadcastInDim ⟨2, ![1, N]⟩ ![1] h1 b) j)
      + FloatOps.dotGeneral (DotDims.plain M K N) none sched h ws j = _
  rw [bias_broadcast_apply M N b h1 h2 j, PlainDot.dotGeneral_apply M K N sched a wr j,
    PlainDot.dotGeneral_apply M K N sched h ws j]
  unfold layer entry
  exact add_right_comm _ _ _

/-- A length-N vector reshaped to a 1×N row reads, at (0, q), the vector's entry q: both sit at row-major position q. -/
theorem reshaped_row_apply (b : (⟨1, ![N]⟩ : Shape).Idx → EReal) (h : (⟨1, ![N]⟩ : Shape).ShapeCasts ⟨2, ![1, N]⟩) (q : Fin N) :
    shapeCast ⟨2, ![1, N]⟩ b h (ix2 (n0 := 1) (n1 := N) ⟨0, Nat.one_pos⟩ q) = b (ix1 (n := N) q) := by
  refine shapeCast_apply b h _ _ ?_
  rw [Shape.rowMajor_val_one, Shape.rowMajor_val_two]
  show q.val = 0 * N + q.val
  omega

/-- A scalar broadcast to every index reads the scalar. -/
theorem scalar_broadcast_apply {t : Shape} (x : (⟨0, ![]⟩ : Shape).Idx → EReal) (h : (⟨0, ![]⟩ : Shape).BroadcastsInDim t ![]) (j : t.Idx) :
    broadcastInDim t ![] h x j = x ix0 :=
  broadcastInDim_apply (s := ⟨0, ![]⟩) (t := t) ![] h x j ix0 fun a => a.elim0

/-- The layer's entry is LOCAL: it reads one row of each left operand, one column of each weight matrix and one bias
    entry. So a layer over B-row blocks, read at `y`, is the layer over M-row arrays read at `i`, once each block's row
    `y 0` is the array's row `i 0`, each weight block's column `y 1` the weight's column `i 1`, and the bias entries agree. -/
theorem layer_local (B : Nat) (x0 x1 : (⟨2, ![B, K]⟩ : Shape).Idx → EReal) (x2 x3 : (⟨2, ![K, N]⟩ : Shape).Idx → EReal) (x4 : Fin N → EReal)
    (a h : (⟨2, ![M, K]⟩ : Shape).Idx → EReal) (wr ws : (⟨2, ![K, N]⟩ : Shape).Idx → EReal) (b : Fin N → EReal)
    (y : (⟨2, ![B, N]⟩ : Shape).Idx) (i : (⟨2, ![M, N]⟩ : Shape).Idx)
    (h0 : ∀ k : Fin K, x0 (ix2 (n0 := B) (n1 := K) ⟨(y 0).val, (y 0).isLt⟩ k) = a (ix2 (n0 := M) (n1 := K) ⟨(i 0).val, (i 0).isLt⟩ k))
    (h1 : ∀ k : Fin K, x1 (ix2 (n0 := B) (n1 := K) ⟨(y 0).val, (y 0).isLt⟩ k) = h (ix2 (n0 := M) (n1 := K) ⟨(i 0).val, (i 0).isLt⟩ k))
    (h2 : ∀ k : Fin K, x2 (ix2 (n0 := K) (n1 := N) k ⟨(y 1).val, (y 1).isLt⟩) = wr (ix2 (n0 := K) (n1 := N) k ⟨(i 1).val, (i 1).isLt⟩))
    (h3 : ∀ k : Fin K, x3 (ix2 (n0 := K) (n1 := N) k ⟨(y 1).val, (y 1).isLt⟩) = ws (ix2 (n0 := K) (n1 := N) k ⟨(i 1).val, (i 1).isLt⟩))
    (h4 : x4 ⟨(y 1).val, (y 1).isLt⟩ = b ⟨(i 1).val, (i 1).isLt⟩) :
    layer B K N x0 x1 x2 x3 x4 y = layer M K N a h wr ws b i := by
  unfold layer entry
  rw [h4]
  refine congrArg₂ (· + ·) (congrArg₂ (· + ·) ?_ ?_) rfl
  · exact Finset.sum_congr rfl fun k _ => by rw [h0 k, h2 k]
  · exact Finset.sum_congr rfl fun k _ => by rw [h1 k, h3 k]

/-- The same with the maximum with 0. -/
theorem layerRelu_local (B : Nat) (x0 x1 : (⟨2, ![B, K]⟩ : Shape).Idx → EReal) (x2 x3 : (⟨2, ![K, N]⟩ : Shape).Idx → EReal) (x4 : Fin N → EReal)
    (a h : (⟨2, ![M, K]⟩ : Shape).Idx → EReal) (wr ws : (⟨2, ![K, N]⟩ : Shape).Idx → EReal) (b : Fin N → EReal)
    (y : (⟨2, ![B, N]⟩ : Shape).Idx) (i : (⟨2, ![M, N]⟩ : Shape).Idx)
    (h0 : ∀ k : Fin K, x0 (ix2 (n0 := B) (n1 := K) ⟨(y 0).val, (y 0).isLt⟩ k) = a (ix2 (n0 := M) (n1 := K) ⟨(i 0).val, (i 0).isLt⟩ k))
    (h1 : ∀ k : Fin K, x1 (ix2 (n0 := B) (n1 := K) ⟨(y 0).val, (y 0).isLt⟩ k) = h (ix2 (n0 := M) (n1 := K) ⟨(i 0).val, (i 0).isLt⟩ k))
    (h2 : ∀ k : Fin K, x2 (ix2 (n0 := K) (n1 := N) k ⟨(y 1).val, (y 1).isLt⟩) = wr (ix2 (n0 := K) (n1 := N) k ⟨(i 1).val, (i 1).isLt⟩))
    (h3 : ∀ k : Fin K, x3 (ix2 (n0 := K) (n1 := N) k ⟨(y 1).val, (y 1).isLt⟩) = ws (ix2 (n0 := K) (n1 := N) k ⟨(i 1).val, (i 1).isLt⟩))
    (h4 : x4 ⟨(y 1).val, (y 1).isLt⟩ = b ⟨(i 1).val, (i 1).isLt⟩) :
    layerRelu B K N x0 x1 x2 x3 x4 y = layerRelu M K N a h wr ws b i :=
  congrArg (max · 0) (layer_local M K N B x0 x1 x2 x3 x4 a h wr ws b y i h0 h1 h2 h3 h4)

end DenseLayer

end
-- ==== Proof.KernelBody.lean ====
/-
  Each kernel body's stored value, read at an index of its block.
  The three bodies compute the same expression of their five loaded blocks — the aggregated rows `x0`, the node rows
  `x1`, the two weight matrices `x2`, `x3` and the 1×N bias row `x4` —: two matrix products into zero accumulators,
  added, plus the bias row broadcast down the rows; the first two bodies then take the maximum with 0. A reshape of a
  block to its own shape is the identity, and the narrowing to bf16 before each product is the identity on extended
  reals, so at (r, q) the value is (∑ₖ x0(r,k)·x2(k,q) + ∑ₖ x1(r,k)·x3(k,q)) + x4(0,q), or its maximum with 0.
-/
import proofs.«120529_j46170898432062_1_alg».proof.Proof.Gen.KernelIdeal.Skeleton
import proofs.«120529_j46170898432062_1_alg».proof.Proof.DenseLayer

noncomputable section

open scoped BigOperators

namespace Cert.KernelIdeal.Body

open Cert.KernelIdeal Cert.KernelIdeal.Gen Idealize.ShloMosaic Idealize.ShloMosaic.ValueIdx

/-- The first layer's body at an index of its 5000×128 block. -/
theorem pay0_apply (x0 x1 : Vec Ideal S5000x128 .f32) (x2 x3 : Vec Ideal S128x128 .f32) (x4 : Vec Ideal S1x128 .f32) (j : S5000x128.Idx) :
    k0_pay1 (F := Ideal) x0 x1 x2 x3 x4 j
      = DenseLayer.layerRelu 5000 128 128 x0 x1 x2 x3 (fun q => x4 (ix2 (n0 := 1) (n1 := 128) ⟨0, Nat.one_pos⟩ q)) j := by
  have e0 : shapeCast S5000x128 x0 shapeCasts_S5000x128_S5000x128 = x0 := shapeCast_self x0 _
  have e4 : shapeCast S1x128 x4 shapeCasts_S1x128_S1x128 = x4 := shapeCast_self x4 _
  unfold k0_pay1
  rw [e0, e4]
  show max (addf (addf _ _) _ j) (Ideal.ofBits .f32 0x00000000#32) = max _ 0
  rw [Ideal.ofBits_zero_f32]
  exact congrArg (max · 0) (DenseLayer.blockwise_apply 5000 128 128 x0 x1 x2 x3 x4 broadcasts_S1x128_S5000x128 bitsLt_bf16_f32 j)

/-- The second layer's body at an index of its 5000×128 block. -/
theorem pay1_apply (x0 x1 : Vec Ideal S5000x128 .f32) (x2 x3 : Vec Ideal S128x128 .f32) (x4 : Vec Ideal S1x128 .f32) (j : S5000x128.Idx) :
    k1_pay1 (F := Ideal) x0 x1 x2 x3 x4 j
      = DenseLayer.layerRelu 5000 128 128 x0 x1 x2 x3 (fun q => x4 (ix2 (n0 := 1) (n1 := 128) ⟨0, Nat.one_pos⟩ q)) j := by
  have e0 : shapeCast S5000x128 x0 shapeCasts_S5000x128_S5000x128 = x0 := shapeCast_self x0 _
  have e1 : shapeCast S5000x128 x1 shapeCasts_S5000x128_S5000x128 = x1 := shapeCast_self x1 _
  have e4 : shapeCast S1x128 x4 shapeCasts_S1x128_S1x128 = x4 := shapeCast_self x4 _
  unfold k1_pay1
  rw [e0, e1, e4]
  show max (addf (addf _ _) _ j) (Ideal.ofBits .f32 0x00000000#32) = max _ 0
  rw [Ideal.ofBits_zero_f32]
  exact congrArg (max · 0) (DenseLayer.blockwise_apply 5000 128 128 x0 x1 x2 x3 x4 broadcasts_S1x128_S5000x128 bitsLt_bf16_f32 j)

/-- The last layer's body at an index of its 5000×40 block: no maximum. -/
theorem pay2_apply (x0 x1 : Vec Ideal S5000x128 .f32) (x2 x3 : Vec Ideal S128x40 .f32) (x4 : Vec Ideal S1x40 .f32) (j : S5000x40.Idx) :
    k2_pay1 (F := Ideal) x0 x1 x2 x3 x4 j
      = DenseLayer.layer 5000 128 40 x0 x1 x2 x3 (fun q => x4 (ix2 (n0 := 1) (n1 := 40) ⟨0, Nat.one_pos⟩ q)) j := by
  have e0 : shapeCast S5000x128 x0 shapeCasts_S5000x128_S5000x128 = x0 := shapeCast_self x0 _
  have e1 : shapeCast S5000x128 x1 shapeCasts_S5000x128_S5000x128 = x1 := shapeCast_self x1 _
  have e4 : shapeCast S1x40 x4 shapeCasts_S1x40_S1x40 = x4 := shapeCast_self x4 _
  unfold k2_pay1
  rw [e0, e1, e4]
  exact DenseLayer.blockwise_apply 5000 128 40 x0 x1 x2 x3 x4 broadcasts_S1x40_S5000x40 bitsLt_bf16_f32 j

end Cert.KernelIdeal.Body

end
-- ==== Proof.KernelRegions.lean ====
/-
  What each of the three kernel regions leaves in its output array, as ONE function of the arrays the region finds.
  A region runs its body at 20 grid points; point t stages rows 5000·t … 5000·t + 4999 of the aggregated array and of
  the node array, the two weight matrices and the bias row whole, and writes back rows 5000·t … of the output. The
  body's value at an index of its block is the dense layer on the blocks (the body module), the layer's entry is local
  to one row and one column, and the 20 row blocks tile the 100000 rows: so the output array is the dense layer of the
  whole arrays. Stated at a parameter `V`, the buffer contents when the region is entered.
-/
import proofs.«120529_j46170898432062_1_alg».proof.Proof.Gen.KernelIdeal.Frame
import proofs.«120529_j46170898432062_1_alg».proof.Proof.KernelBody
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of every load and store of the bodies. -/
theorem hz : (![0, 0] : Fin 2 → Nat) = fun _ => 0 := funext fun a => by fin_cases a <;> rfl

/-! ## Region 0: main_v15 from main_v13 (aggregated rows), main_arg0 (node rows), main_arg2, main_arg3 (weights) and main_v14 (the bias as a 1×128 row) -/

/-- The arrays region 0 finds, at their literal types. -/
abbrev agg0 (c : Dev nD) : Vec Ideal S100000x128 .f32 := V c main_v13
abbrev node0 (c : Dev nD) : Vec Ideal S100000x128 .f32 := V c main_arg0
abbrev wr0 (c : Dev nD) : Vec Ideal S128x128 .f32 := V c main_arg2
abbrev ws0 (c : Dev nD) : Vec Ideal S128x128 .f32 := V c main_arg3
abbrev bias0 (c : Dev nD) : Vec Ideal S1x128 .f32 := V c main_v14

/-- What region 0 leaves in its output array: the dense layer of the arrays it finds, then the maximum with 0. -/
def L0 (c : Dev nD) : Vec Ideal S100000x128 .f32 :=
  DenseLayer.layerRelu 100000 128 128 (agg0 V c) (node0 V c) (wr0 V c) (ws0 V c) (fun q => bias0 V c (ix2 (n0 := 1) (n1 := 128) ⟨0, Nat.one_pos⟩ q))

/-- The printed index maps over the 20 grid points: the two row-blocked inputs move with the output (block row = the
    point's number), the weights and the bias row are whole at block (0, 0). -/
theorem idx0 : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `L0`: the body's value at `y` is the layer on the blocks, and each
    block's row `y 0` is its array's row 5000·t + `y 0`, each weight's column `y 1` the same column. -/
theorem flushed0_eq (c : Dev nD) (t : Fin cfg0.N) :
    (dat0 V c).flushed 5 t = ((cfg0.win 5).blk t).view.read (Elt Ideal) (L0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨a0, a1, b0, b1, c0, c1, d0, d1, e0, e1, f0, f1⟩ := idx0 t
  funext y
  show k0_pay1 (iblk0 V c 0 t) (iblk0 V c 1 t) (iblk0 V c 2 t) (iblk0 V c 3 t) (iblk0 V c 4 t) y = L0 V c (((cfg0.win 5).blk t).view.emb y)
  refine (Cert.KernelIdeal.Body.pay0_apply (iblk0 V c 0 t) (iblk0 V c 1 t) (iblk0 V c 2 t) (iblk0 V c 3 t) (iblk0 V c 4 t) y).trans ?_
  refine DenseLayer.layerRelu_local 100000 128 128 5000 (iblk0 V c 0 t) (iblk0 V c 1 t) (iblk0 V c 2 t) (iblk0 V c 3 t)
    (fun q => iblk0 V c 4 t (ix2 (n0 := 1) (n1 := 128) ⟨0, Nat.one_pos⟩ q)) (agg0 V c) (node0 V c) (wr0 V c) (ws0 V c)
    (fun q => bias0 V c (ix2 (n0 := 1) (n1 := 128) ⟨0, Nat.one_pos⟩ q)) y (((cfg0.win 5).blk t).view.emb y)
    (fun k => ?_) (fun k => ?_) (fun k => ?_) (fun k => ?_) ?_
  · show V c main_v13 (((cfg0.win 0).blk t).view.emb (ix2 (n0 := 5000) (n1 := 128) ⟨(y 0).val, (y 0).isLt⟩ k)) = V c main_v13 _
    refine congrArg (V c main_v13) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * k.val = k.val; omega
  · show V c main_arg0 (((cfg0.win 1).blk t).view.emb (ix2 (n0 := 5000) (n1 := 128) ⟨(y 0).val, (y 0).isLt⟩ k)) = V c main_arg0 _
    refine congrArg (V c main_arg0) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * k.val = k.val; omega
  · show V c main_arg2 (((cfg0.win 2).blk t).view.emb (ix2 (n0 := 128) (n1 := 128) k ⟨(y 1).val, (y 1).isLt⟩)) = V c main_arg2 _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_5.index t (1 : Fin 2) * 128 + 1 * (y 1).val; omega
  · show V c main_arg3 (((cfg0.win 3).blk t).view.emb (ix2 (n0 := 128) (n1 := 128) k ⟨(y 1).val, (y 1).isLt⟩)) = V c main_arg3 _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * (y 1).val = win0_5.index t (1 : Fin 2) * 128 + 1 * (y 1).val; omega
  · show V c main_v14 (((cfg0.win 4).blk t).view.emb (ix2 (n0 := 1) (n1 := 128) ⟨0, Nat.one_pos⟩ ⟨(y 1).val, (y 1).isLt⟩)) = V c main_v14 _
    refine congrArg (V c main_v14) (funext fun a => Fin.ext ?_)
    match a with
    | ⟨0, _⟩ => show win0_4.index t (0 : Fin 2) * 1 + 1 * 0 = 0; omega
    | ⟨1, _⟩ => show win0_4.index t (1 : Fin 2) * 128 + 1 * (y 1).val = win0_5.index t (1 : Fin 2) * 128 + 1 * (y 1).val; omega

/-- An index of the output array lies in point `t`'s block iff each coordinate lies in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15).slice (win0_5.rect t)).set ↔ _
  rw [View.set_slice_whole, Rect.mem_set_unit]
  exact Iff.rfl

/-- The 20 row blocks cover the output array: row r lies in block r / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  rw [mem_blk0]
  obtain ⟨-, -, -, -, -, -, -, -, -, -, f0, f1⟩ := idx0 ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [f1]; omega

/-- So region 0's output array ends holding `L0`. -/
theorem arr0 (c : Dev nD) : (dat0 V c).arrAt 5 cfg0.N = L0 V c :=
  (dat0 V c).arrAt_eq_of_cover 5 (L0 V c) (fun t _ => flushed0_eq V c t) (cover0)

/-! ## Region 1: main_v27 from main_v25 (aggregated rows), main_v15 (node rows), main_arg5, main_arg6 (weights) and main_v26 (the bias as a 1×128 row) -/

/-- The arrays region 1 finds, at their literal types. -/
abbrev agg1 (c : Dev nD) : Vec Ideal S100000x128 .f32 := V c main_v25
abbrev node1 (c : Dev nD) : Vec Ideal S100000x128 .f32 := V c main_v15
abbrev wr1 (c : Dev nD) : Vec Ideal S128x128 .f32 := V c main_arg5
abbrev ws1 (c : Dev nD) : Vec Ideal S128x128 .f32 := V c main_arg6
abbrev bias1 (c : Dev nD) : Vec Ideal S1x128 .f32 := V c main_v26

/-- What region 1 leaves in its output array: the dense layer of the arrays it finds, then the maximum with 0. -/
def L1 (c : Dev nD) : Vec Ideal S100000x128 .f32 :=
  DenseLayer.layerRelu 100000 128 128 (agg1 V c) (node1 V c) (wr1 V c) (ws1 V c) (fun q => bias1 V c (ix2 (n0 := 1) (n1 := 128) ⟨0, Nat.one_pos⟩ q))

/-- The printed index maps over the 20 grid points: the two row-blocked inputs move with the output (block row = the
    point's number), the weights and the bias row are whole at block (0, 0). -/
theorem idx1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `L1`: the body's value at `y` is the layer on the blocks, and each
    block's row `y 0` is its array's row 5000·t + `y 0`, each weight's column `y 1` the same column. -/
theorem flushed1_eq (c : Dev nD) (t : Fin cfg1.N) :
    (dat1 V c).flushed 5 t = ((cfg1.win 5).blk t).view.read (Elt Ideal) (L1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨a0, a1, b0, b1, c0, c1, d0, d1, e0, e1, f0, f1⟩ := idx1 t
  funext y
  show k1_pay1 (iblk1 V c 0 t) (iblk1 V c 1 t) (iblk1 V c 2 t) (iblk1 V c 3 t) (iblk1 V c 4 t) y = L1 V c (((cfg1.win 5).blk t).view.emb y)
  refine (Cert.KernelIdeal.Body.pay1_apply (iblk1 V c 0 t) (iblk1 V c 1 t) (iblk1 V c 2 t) (iblk1 V c 3 t) (iblk1 V c 4 t) y).trans ?_
  refine DenseLayer.layerRelu_local 100000 128 128 5000 (iblk1 V c 0 t) (iblk1 V c 1 t) (iblk1 V c 2 t) (iblk1 V c 3 t)
    (fun q => iblk1 V c 4 t (ix2 (n0 := 1) (n1 := 128) ⟨0, Nat.one_pos⟩ q)) (agg1 V c) (node1 V c) (wr1 V c) (ws1 V c)
    (fun q => bias1 V c (ix2 (n0 := 1) (n1 := 128) ⟨0, Nat.one_pos⟩ q)) y (((cfg1.win 5).blk t).view.emb y)
    (fun k => ?_) (fun k => ?_) (fun k => ?_) (fun k => ?_) ?_
  · show V c main_v25 (((cfg1.win 0).blk t).view.emb (ix2 (n0 := 5000) (n1 := 128) ⟨(y 0).val, (y 0).isLt⟩ k)) = V c main_v25 _
    refine congrArg (V c main_v25) (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * k.val = k.val; omega
  · show V c main_v15 (((cfg1.win 1).blk t).view.emb (ix2 (n0 := 5000) (n1 := 128) ⟨(y 0).val, (y 0).isLt⟩ k)) = V c main_v15 _
    refine congrArg (V c main_v15) (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * k.val = k.val; omega
  · show V c main_arg5 (((cfg1.win 2).blk t).view.emb (ix2 (n0 := 128) (n1 := 128) k ⟨(y 1).val, (y 1).isLt⟩)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (y 1).val = win1_5.index t (1 : Fin 2) * 128 + 1 * (y 1).val; omega
  · show V c main_arg6 (((cfg1.win 3).blk t).view.emb (ix2 (n0 := 128) (n1 := 128) k ⟨(y 1).val, (y 1).isLt⟩)) = V c main_arg6 _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * (y 1).val = win1_5.index t (1 : Fin 2) * 128 + 1 * (y 1).val; omega
  · show V c main_v26 (((cfg1.win 4).blk t).view.emb (ix2 (n0 := 1) (n1 := 128) ⟨0, Nat.one_pos⟩ ⟨(y 1).val, (y 1).isLt⟩)) = V c main_v26 _
    refine congrArg (V c main_v26) (funext fun a => Fin.ext ?_)
    match a with
    | ⟨0, _⟩ => show win1_4.index t (0 : Fin 2) * 1 + 1 * 0 = 0; omega
    | ⟨1, _⟩ => show win1_4.index t (1 : Fin 2) * 128 + 1 * (y 1).val = win1_5.index t (1 : Fin 2) * 128 + 1 * (y 1).val; omega

/-- An index of the output array lies in point `t`'s block iff each coordinate lies in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- The 20 row blocks cover the output array: row r lies in block r / 5000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  rw [mem_blk1]
  obtain ⟨-, -, -, -, -, -, -, -, -, -, f0, f1⟩ := idx1 ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [f1]; omega

/-- So region 1's output array ends holding `L1`. -/
theorem arr1 (c : Dev nD) : (dat1 V c).arrAt 5 cfg1.N = L1 V c :=
  (dat1 V c).arrAt_eq_of_cover 5 (L1 V c) (fun t _ => flushed1_eq V c t) (cover1)

/-! ## Region 2: main_v39 from main_v37 (aggregated rows), main_v27 (node rows), main_arg8, main_arg9 (weights) and main_v38 (the bias as a 1×40 row) -/

/-- The arrays region 2 finds, at their literal types. -/
abbrev agg2 (c : Dev nD) : Vec Ideal S100000x128 .f32 := V c main_v37
abbrev node2 (c : Dev nD) : Vec Ideal S100000x128 .f32 := V c main_v27
abbrev wr2 (c : Dev nD) : Vec Ideal S128x40 .f32 := V c main_arg8
abbrev ws2 (c : Dev nD) : Vec Ideal S128x40 .f32 := V c main_arg9
abbrev bias2 (c : Dev nD) : Vec Ideal S1x40 .f32 := V c main_v38

/-- What region 2 leaves in its output array: the dense layer of the arrays it finds. -/
def L2 (c : Dev nD) : Vec Ideal S100000x40 .f32 :=
  DenseLayer.layer 100000 128 40 (agg2 V c) (node2 V c) (wr2 V c) (ws2 V c) (fun q => bias2 V c (ix2 (n0 := 1) (n1 := 40) ⟨0, Nat.one_pos⟩ q))

/-- The printed index maps over the 20 grid points: the two row-blocked inputs move with the output (block row = the
    point's number), the weights and the bias row are whole at block (0, 0). -/
theorem idx2 : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `L2`: the body's value at `y` is the layer on the blocks, and each
    block's row `y 0` is its array's row 5000·t + `y 0`, each weight's column `y 1` the same column. -/
theorem flushed2_eq (c : Dev nD) (t : Fin cfg2.N) :
    (dat2 V c).flushed 5 t = ((cfg2.win 5).blk t).view.read (Elt Ideal) (L2 V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x40) hz, View.ld_unit_zero (S := S1x40) hz]
  obtain ⟨a0, a1, b0, b1, c0, c1, d0, d1, e0, e1, f0, f1⟩ := idx2 t
  funext y
  show k2_pay1 (iblk2 V c 0 t) (iblk2 V c 1 t) (iblk2 V c 2 t) (iblk2 V c 3 t) (iblk2 V c 4 t) y = L2 V c (((cfg2.win 5).blk t).view.emb y)
  refine (Cert.KernelIdeal.Body.pay2_apply (iblk2 V c 0 t) (iblk2 V c 1 t) (iblk2 V c 2 t) (iblk2 V c 3 t) (iblk2 V c 4 t) y).trans ?_
  refine DenseLayer.layer_local 100000 128 40 5000 (iblk2 V c 0 t) (iblk2 V c 1 t) (iblk2 V c 2 t) (iblk2 V c 3 t)
    (fun q => iblk2 V c 4 t (ix2 (n0 := 1) (n1 := 40) ⟨0, Nat.one_pos⟩ q)) (agg2 V c) (node2 V c) (wr2 V c) (ws2 V c)
    (fun q => bias2 V c (ix2 (n0 := 1) (n1 := 40) ⟨0, Nat.one_pos⟩ q)) y (((cfg2.win 5).blk t).view.emb y)
    (fun k => ?_) (fun k => ?_) (fun k => ?_) (fun k => ?_) ?_
  · show V c main_v37 (((cfg2.win 0).blk t).view.emb (ix2 (n0 := 5000) (n1 := 128) ⟨(y 0).val, (y 0).isLt⟩ k)) = V c main_v37 _
    refine congrArg (V c main_v37) (funext fun a => Fin.ext ?_)
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 128 + 1 * k.val = k.val; omega
  · show V c main_v27 (((cfg2.win 1).blk t).view.emb (ix2 (n0 := 5000) (n1 := 128) ⟨(y 0).val, (y 0).isLt⟩ k)) = V c main_v27 _
    refine congrArg (V c main_v27) (funext fun a => Fin.ext ?_)
    match a with
    | ⟨0, _⟩ => show win2_1.index t (0 : Fin 2) * 5000 + 1 * (y 0).val = win2_5.index t (0 : Fin 2) * 5000 + 1 * (y 0).val; omega
    | ⟨1, _⟩ => show win2_1.index t (1 : Fin 2) * 128 + 1 * k.val = k.val; omega
  · show V c main_arg8 (((cfg2.win 2).blk t).view.emb (ix2 (n0 := 128) (n1 := 40) k ⟨(y 1).val, (y 1).isLt⟩)) = V c main_arg8 _
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 40 + 1 * (y 1).val = win2_5.index t (1 : Fin 2) * 40 + 1 * (y 1).val; omega
  · show V c main_arg9 (((cfg2.win 3).blk t).view.emb (ix2 (n0 := 128) (n1 := 40) k ⟨(y 1).val, (y 1).isLt⟩)) = V c main_arg9 _
    refine congrArg (V c main_arg9) (funext fun a => Fin.ext ?_)
    match a with
    | ⟨0, _⟩ => show win2_3.index t (0 : Fin 2) * 128 + 1 * k.val = k.val; omega
    | ⟨1, _⟩ => show win2_3.index t (1 : Fin 2) * 40 + 1 * (y 1).val = win2_5.index t (1 : Fin 2) * 40 + 1 * (y 1).val; omega
  · show V c main_v38 (((cfg2.win 4).blk t).view.emb (ix2 (n0 := 1) (n1 := 40) ⟨0, Nat.one_pos⟩ ⟨(y 1).val, (y 1).isLt⟩)) = V c main_v38 _
    refine congrArg (V c main_v38) (funext fun a => Fin.ext ?_)
    match a with
    | ⟨0, _⟩ => show win2_4.index t (0 : Fin 2) * 1 + 1 * 0 = 0; omega
    | ⟨1, _⟩ => show win2_4.index t (1 : Fin 2) * 40 + 1 * (y 1).val = win2_5.index t (1 : Fin 2) * 40 + 1 * (y 1).val; omega

/-- An index of the output array lies in point `t`'s block iff each coordinate lies in the block's range on its axis. -/
theorem mem_blk2 (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v39).slice (win2_5.rect t)).set ↔ _
  rw [View.set_slice_whole, Rect.mem_set_unit]
  exact Iff.rfl

/-- The 20 row blocks cover the output array: row r lies in block r / 5000. -/
theorem cover2 (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 20 := N_2
  have ht : (i 0).val / 5000 < cfg2.N := by rw [hN]; omega
  refine ⟨⟨(i 0).val / 5000, ht⟩, flush2_5 _, ?_⟩
  rw [mem_blk2]
  obtain ⟨-, -, -, -, -, -, -, -, -, -, f0, f1⟩ := idx2 ⟨(i 0).val / 5000, ht⟩
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win2_5.index ⟨(i 0).val / 5000, ht⟩ (1 : Fin 2) * 40 ≤ (i 1).val ∧ (i 1).val < win2_5.index ⟨(i 0).val / 5000, ht⟩ (1 : Fin 2) * 40 + 40
    rw [f1]; omega

/-- So region 2's output array ends holding `L2`. -/
theorem arr2 (c : Dev nD) : (dat2 V c).arrAt 5 cfg2.N = L2 V c :=
  (dat2 V c).arrAt_eq_of_cover 5 (L2 V c) (fun t _ => flushed2_eq V c t) (cover2)

end Cert.KernelIdeal.Regions

end
-- ==== Proof.KernelResult.lean ====
/-
  The kernel program's result as a function of its arguments.
  @main alternates host stretches with the three kernel regions. Each stretch recomputes the wrapped source indices,
  gathers the current node array's rows at them and scatter-adds the rows onto the destination indices from a zero
  array (the aggregation, carried as one function), and reshapes the layer's bias vector to a 1×N row; the region that
  follows turns the aggregated array, the node array, the two weight matrices and the bias row into the dense layer of
  them (the regions module). The buffer contents at the six segment boundaries are a fold from the launch memory;
  walking it back — a buffer no stretch or region writes keeps its contents, a computed buffer is its operation's
  value — gives the result buffer as three composed layers of the argument arrays.
-/
import proofs.«120529_j46170898432062_1_alg».proof.Proof.KernelRegions
import Idealize.ShloMosaic.Lib.StableHlo.Run

set_option maxRecDepth 16384

noncomputable section

open scoped BigOperators

namespace Cert.KernelIdeal.Result

open Cert.KernelIdeal Cert.KernelIdeal.Gen Cert.KernelIdeal.Regions
open Idealize.ShloMosaic Idealize.ShloMosaic.TcCoe Idealize.ShloMosaic.ValueIdx Idealize.SL.Sem Idealize.ShloMosaic.StableHlo

/-- The source indices: row 0 of the edge array, as a vector. -/
def srcVec (E : IVec S2x1600000 32) : IVec S1600000 32 :=
  shapeCast _ (extractStridedSlice S1x1600000 ![0, 0] E slices_S2x1600000_S1x1600000_0_0) shapeCasts_S1x1600000_S1600000
/-- The destination indices: row 1 of the edge array, as a vector. -/
def dstVec (E : IVec S2x1600000 32) : IVec S1600000 32 :=
  shapeCast _ (extractStridedSlice S1x1600000 ![1, 0] E slices_S2x1600000_S1x1600000_1_0) shapeCasts_S1x1600000_S1600000
/-- The aggregation of a node array over the edges. -/
def aggOf (s d : IVec S1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A 128-entry bias vector as the kernel reads it: through its reshape to a 1×128 row. -/
def biasRow128 (b : FVec Ideal S128 .f32) : Fin 128 → EReal :=
  fun q => shapeCast S1x128 b shapeCasts_S128_S1x128 (ix2 (n0 := 1) (n1 := 128) ⟨0, Nat.one_pos⟩ q)
/-- The 40-entry bias vector through its reshape to a 1×40 row. -/
def biasRow40 (b : FVec Ideal S40 .f32) : Fin 40 → EReal :=
  fun q => shapeCast S1x40 b shapeCasts_S40_S1x40 (ix2 (n0 := 1) (n1 := 40) ⟨0, Nat.one_pos⟩ q)

/-- The first layer's output. -/
def hidden1 (X : FVec Ideal S100000x128 .f32) (E : IVec S2x1600000 32) (Wr0 Ws0 : FVec Ideal S128x128 .f32) (b0 : FVec Ideal S128 .f32) :
    FVec Ideal S100000x128 .f32 :=
  DenseLayer.layerRelu 100000 128 128 (aggOf (srcVec E) (dstVec E) X) X Wr0 Ws0 (biasRow128 b0)
/-- The second layer's output, from the first's. -/
def hidden2 (H1 : FVec Ideal S100000x128 .f32) (E : IVec S2x1600000 32) (Wr1 Ws1 : FVec Ideal S128x128 .f32) (b1 : FVec Ideal S128 .f32) :
    FVec Ideal S100000x128 .f32 :=
  DenseLayer.layerRelu 100000 128 128 (aggOf (srcVec E) (dstVec E) H1) H1 Wr1 Ws1 (biasRow128 b1)
/-- The last layer's output, from the second's. -/
def logits (H2 : FVec Ideal S100000x128 .f32) (E : IVec S2x1600000 32) (Wr2 Ws2 : FVec Ideal S128x40 .f32) (b2 : FVec Ideal S40 .f32) :
    FVec Ideal S100000x40 .f32 :=
  DenseLayer.layer 100000 128 40 (aggOf (srcVec E) (dstVec E) H2) H2 Wr2 Ws2 (biasRow40 b2)

/-! ## The host stretches, from any buffer contents `W`: what each computes, and what each leaves alone -/

section Stretches
variable (W : Valuation τ sig (Elt Ideal))

theorem s0_src : StableHlo.after (hostOps0 (F := Ideal)) W (Proc.devRef .tc main_v1) = srcVec (W (Proc.devRef .tc main_arg1)) := by
  dsimp only [hostOps0]; after_results; rfl
theorem s0_dst : StableHlo.after (hostOps0 (F := Ideal)) W (Proc.devRef .tc main_v3) = dstVec (W (Proc.devRef .tc main_arg1)) := by
  dsimp only [hostOps0]; after_results; rfl
theorem s0_agg : StableHlo.after (hostOps0 (F := Ideal)) W (Proc.devRef .tc main_v13)
    = aggOf (srcVec (W (Proc.devRef .tc main_arg1))) (dstVec (W (Proc.devRef .tc main_arg1))) (W (Proc.devRef .tc main_arg0)) := by
  dsimp only [hostOps0]; after_results; rfl
theorem s0_bias : StableHlo.after (hostOps0 (F := Ideal)) W (Proc.devRef .tc main_v14)
    = shapeCast S1x128 (W (Proc.devRef .tc main_arg4)) shapeCasts_S128_S1x128 := by
  dsimp only [hostOps0]; after_results; rfl
theorem s0_arg0 : StableHlo.after (hostOps0 (F := Ideal)) W (Proc.devRef .tc main_arg0) = W (Proc.devRef .tc main_arg0) := by
  dsimp only [hostOps0]; after_results
theorem s0_arg2 : StableHlo.after (hostOps0 (F := Ideal)) W (Proc.devRef .tc main_arg2) = W (Proc.devRef .tc main_arg2) := by
  dsimp only [hostOps0]; after_results
theorem s0_arg3 : StableHlo.after (hostOps0 (F := Ideal)) W (Proc.devRef .tc main_arg3) = W (Proc.devRef .tc main_arg3) := by
  dsimp only [hostOps0]; after_results
theorem s0_arg5 : StableHlo.after (hostOps0 (F := Ideal)) W (Proc.devRef .tc main_arg5) = W (Proc.devRef .tc main_arg5) := by
  dsimp only [hostOps0]; after_results
theorem s0_arg6 : StableHlo.after (hostOps0 (F := Ideal)) W (Proc.devRef .tc main_arg6) = W (Proc.devRef .tc main_arg6) := by
  dsimp only [hostOps0]; after_results
theorem s0_arg7 : StableHlo.after (hostOps0 (F := Ideal)) W (Proc.devRef .tc main_arg7) = W (Proc.devRef .tc main_arg7) := by
  dsimp only [hostOps0]; after_results
theorem s0_arg8 : StableHlo.after (hostOps0 (F := Ideal)) W (Proc.devRef .tc main_arg8) = W (Proc.devRef .tc main_arg8) := by
  dsimp only [hostOps0]; after_results
theorem s0_arg9 : StableHlo.after (hostOps0 (F := Ideal)) W (Proc.devRef .tc main_arg9) = W (Proc.devRef .tc main_arg9) := by
  dsimp only [hostOps0]; after_results
theorem s0_arg10 : StableHlo.after (hostOps0 (F := Ideal)) W (Proc.devRef .tc main_arg10) = W (Proc.devRef .tc main_arg10) := by
  dsimp only [hostOps0]; after_results

theorem s1_agg : StableHlo.after (hostOps1 (F := Ideal)) W (Proc.devRef .tc main_v25)
    = aggOf (W (Proc.devRef .tc main_v1)) (W (Proc.devRef .tc main_v3)) (W (Proc.devRef .tc main_v15)) := by
  dsimp only [hostOps1]; after_results; rfl
theorem s1_bias : StableHlo.after (hostOps1 (F := Ideal)) W (Proc.devRef .tc main_v26)
    = shapeCast S1x128 (W (Proc.devRef .tc main_arg7)) shapeCasts_S128_S1x128 := by
  dsimp only [hostOps1]; after_results; rfl
theorem s1_v15 : StableHlo.after (hostOps1 (F := Ideal)) W (Proc.devRef .tc main_v15) = W (Proc.devRef .tc main_v15) := by
  dsimp only [hostOps1]; after_results
theorem s1_v1 : StableHlo.after (hostOps1 (F := Ideal)) W (Proc.devRef .tc main_v1) = W (Proc.devRef .tc main_v1) := by
  dsimp only [hostOps1]; after_results
theorem s1_v3 : StableHlo.after (hostOps1 (F := Ideal)) W (Proc.devRef .tc main_v3) = W (Proc.devRef .tc main_v3) := by
  dsimp only [hostOps1]; after_results
theorem s1_arg5 : StableHlo.after (hostOps1 (F := Ideal)) W (Proc.devRef .tc main_arg5) = W (Proc.devRef .tc main_arg5) := by
  dsimp only [hostOps1]; after_results
theorem s1_arg6 : StableHlo.after (hostOps1 (F := Ideal)) W (Proc.devRef .tc main_arg6) = W (Proc.devRef .tc main_arg6) := by
  dsimp only [hostOps1]; after_results
theorem s1_arg8 : StableHlo.after (hostOps1 (F := Ideal)) W (Proc.devRef .tc main_arg8) = W (Proc.devRef .tc main_arg8) := by
  dsimp only [hostOps1]; after_results
theorem s1_arg9 : StableHlo.after (hostOps1 (F := Ideal)) W (Proc.devRef .tc main_arg9) = W (Proc.devRef .tc main_arg9) := by
  dsimp only [hostOps1]; after_results
theorem s1_arg10 : StableHlo.after (hostOps1 (F := Ideal)) W (Proc.devRef .tc main_arg10) = W (Proc.devRef .tc main_arg10) := by
  dsimp only [hostOps1]; after_results

theorem s2_agg : StableHlo.after (hostOps2 (F := Ideal)) W (Proc.devRef .tc main_v37)
    = aggOf (W (Proc.devRef .tc main_v1)) (W (Proc.devRef .tc main_v3)) (W (Proc.devRef .tc main_v27)) := by
  dsimp only [hostOps2]; after_results; rfl
theorem s2_bias : StableHlo.after (hostOps2 (F := Ideal)) W (Proc.devRef .tc main_v38)
    = shapeCast S1x40 (W (Proc.devRef .tc main_arg10)) shapeCasts_S40_S1x40 := by
  dsimp only [hostOps2]; after_results; rfl
theorem s2_v27 : StableHlo.after (hostOps2 (F := Ideal)) W (Proc.devRef .tc main_v27) = W (Proc.devRef .tc main_v27) := by
  dsimp only [hostOps2]; after_results
theorem s2_arg8 : StableHlo.after (hostOps2 (F := Ideal)) W (Proc.devRef .tc main_arg8) = W (Proc.devRef .tc main_arg8) := by
  dsimp only [hostOps2]; after_results
theorem s2_arg9 : StableHlo.after (hostOps2 (F := Ideal)) W (Proc.devRef .tc main_arg9) = W (Proc.devRef .tc main_arg9) := by
  dsimp only [hostOps2]; after_results

end Stretches

/-! ## The fold, walked back to the arguments -/

variable (m : (ℓ : Loc nD τ sig) → Buf (Elt Ideal) ℓ) (ρ : Dev nD → PrngReg)

/-- The argument arrays as launched, at their literal types. -/
abbrev aX (c : Dev nD) : FVec Ideal S100000x128 .f32 := m ((c : Thread nD τ).loc main_arg0)
abbrev aE (c : Dev nD) : IVec S2x1600000 32 := m ((c : Thread nD τ).loc main_arg1)
abbrev aWr0 (c : Dev nD) : FVec Ideal S128x128 .f32 := m ((c : Thread nD τ).loc main_arg2)
abbrev aWs0 (c : Dev nD) : FVec Ideal S128x128 .f32 := m ((c : Thread nD τ).loc main_arg3)
abbrev ab0 (c : Dev nD) : FVec Ideal S128 .f32 := m ((c : Thread nD τ).loc main_arg4)
abbrev aWr1 (c : Dev nD) : FVec Ideal S128x128 .f32 := m ((c : Thread nD τ).loc main_arg5)
abbrev aWs1 (c : Dev nD) : FVec Ideal S128x128 .f32 := m ((c : Thread nD τ).loc main_arg6)
abbrev ab1 (c : Dev nD) : FVec Ideal S128 .f32 := m ((c : Thread nD τ).loc main_arg7)
abbrev aWr2 (c : Dev nD) : FVec Ideal S128x40 .f32 := m ((c : Thread nD τ).loc main_arg8)
abbrev aWs2 (c : Dev nD) : FVec Ideal S128x40 .f32 := m ((c : Thread nD τ).loc main_arg9)
abbrev ab2 (c : Dev nD) : FVec Ideal S40 .f32 := m ((c : Thread nD τ).loc main_arg10)

/-- The three layers of the launched arguments. -/
abbrev out1 (c : Dev nD) : FVec Ideal S100000x128 .f32 := hidden1 (aX m c) (aE m c) (aWr0 m c) (aWs0 m c) (ab0 m c)
abbrev out2 (c : Dev nD) : FVec Ideal S100000x128 .f32 := hidden2 (out1 m c) (aE m c) (aWr1 m c) (aWs1 m c) (ab1 m c)
abbrev out3 (c : Dev nD) : FVec Ideal S100000x40 .f32 := logits (out2 m c) (aE m c) (aWr2 m c) (aWs2 m c) (ab2 m c)

/-! ### Region 0's entry and exit -/

theorem W1_src (c : Dev nD) : W1 m ρ c (Proc.devRef .tc main_v1) = srcVec (aE m c) := s0_src (W0 m ρ c)
theorem W1_dst (c : Dev nD) : W1 m ρ c (Proc.devRef .tc main_v3) = dstVec (aE m c) := s0_dst (W0 m ρ c)
theorem W1_agg (c : Dev nD) : W1 m ρ c (Proc.devRef .tc main_v13) = aggOf (srcVec (aE m c)) (dstVec (aE m c)) (aX m c) := s0_agg (W0 m ρ c)
theorem W1_bias (c : Dev nD) : W1 m ρ c (Proc.devRef .tc main_v14) = shapeCast S1x128 (ab0 m c) shapeCasts_S128_S1x128 := s0_bias (W0 m ρ c)
theorem W1_arg0 (c : Dev nD) : W1 m ρ c (Proc.devRef .tc main_arg0) = aX m c := s0_arg0 (W0 m ρ c)
theorem W1_arg2 (c : Dev nD) : W1 m ρ c (Proc.devRef .tc main_arg2) = aWr0 m c := s0_arg2 (W0 m ρ c)
theorem W1_arg3 (c : Dev nD) : W1 m ρ c (Proc.devRef .tc main_arg3) = aWs0 m c := s0_arg3 (W0 m ρ c)

/-- Region 0 leaves the first layer's output in main_v15. -/
theorem W2_out (c : Dev nD) : W2 m ρ c (Proc.devRef .tc main_v15) = out1 m c := by
  refine (W2_arr m ρ c 5).trans ((arr0 (V1 m ρ) c).trans ?_)
  show DenseLayer.layerRelu 100000 128 128 (W1 m ρ c (Proc.devRef .tc main_v13)) (W1 m ρ c (Proc.devRef .tc main_arg0))
      (W1 m ρ c (Proc.devRef .tc main_arg2)) (W1 m ρ c (Proc.devRef .tc main_arg3))
      (fun q => W1 m ρ c (Proc.devRef .tc main_v14) (ix2 (n0 := 1) (n1 := 128) ⟨0, Nat.one_pos⟩ q)) = _
  rw [W1_agg, W1_arg0, W1_arg2, W1_arg3, W1_bias]
  rfl
theorem W2_src (c : Dev nD) : W2 m ρ c (Proc.devRef .tc main_v1) = srcVec (aE m c) :=
  (W2_of_ne m ρ c main_v1 (by decide)).trans (W1_src m ρ c)
theorem W2_dst (c : Dev nD) : W2 m ρ c (Proc.devRef .tc main_v3) = dstVec (aE m c) :=
  (W2_of_ne m ρ c main_v3 (by decide)).trans (W1_dst m ρ c)
theorem W2_arg5 (c : Dev nD) : W2 m ρ c (Proc.devRef .tc main_arg5) = aWr1 m c :=
  (W2_of_ne m ρ c main_arg5 (by decide)).trans (s0_arg5 (W0 m ρ c))
theorem W2_arg6 (c : Dev nD) : W2 m ρ c (Proc.devRef .tc main_arg6) = aWs1 m c :=
  (W2_of_ne m ρ c main_arg6 (by decide)).trans (s0_arg6 (W0 m ρ c))
theorem W2_arg7 (c : Dev nD) : W2 m ρ c (Proc.devRef .tc main_arg7) = ab1 m c :=
  (W2_of_ne m ρ c main_arg7 (by decide)).trans (s0_arg7 (W0 m ρ c))
theorem W2_arg8 (c : Dev nD) : W2 m ρ c (Proc.devRef .tc main_arg8) = aWr2 m c :=
  (W2_of_ne m ρ c main_arg8 (by decide)).trans (s0_arg8 (W0 m ρ c))
theorem W2_arg9 (c : Dev nD) : W2 m ρ c (Proc.devRef .tc main_arg9) = aWs2 m c :=
  (W2_of_ne m ρ c main_arg9 (by decide)).trans (s0_arg9 (W0 m ρ c))
theorem W2_arg10 (c : Dev nD) : W2 m ρ c (Proc.devRef .tc main_arg10) = ab2 m c :=
  (W2_of_ne m ρ c main_arg10 (by decide)).trans (s0_arg10 (W0 m ρ c))

/-! ### Region 1's entry and exit -/

theorem W3_agg (c : Dev nD) : W3 m ρ c (Proc.devRef .tc main_v25) = aggOf (srcVec (aE m c)) (dstVec (aE m c)) (out1 m c) := by
  refine (s1_agg (W2 m ρ c)).trans ?_
  rw [W2_src, W2_dst, W2_out]
theorem W3_bias (c : Dev nD) : W3 m ρ c (Proc.devRef .tc main_v26) = shapeCast S1x128 (ab1 m c) shapeCasts_S128_S1x128 := by
  refine (s1_bias (W2 m ρ c)).trans ?_
  rw [W2_arg7]
theorem W3_node (c : Dev nD) : W3 m ρ c (Proc.devRef .tc main_v15) = out1 m c := (s1_v15 (W2 m ρ c)).trans (W2_out m ρ c)
theorem W3_arg5 (c : Dev nD) : W3 m ρ c (Proc.devRef .tc main_arg5) = aWr1 m c := (s1_arg5 (W2 m ρ c)).trans (W2_arg5 m ρ c)
theorem W3_arg6 (c : Dev nD) : W3 m ρ c (Proc.devRef .tc main_arg6) = aWs1 m c := (s1_arg6 (W2 m ρ c)).trans (W2_arg6 m ρ c)

/-- Region 1 leaves the second layer's output in main_v27. -/
theorem W4_out (c : Dev nD) : W4 m ρ c (Proc.devRef .tc main_v27) = out2 m c := by
  refine (W4_arr m ρ c 5).trans ((arr1 (V3 m ρ) c).trans ?_)
  show DenseLayer.layerRelu 100000 128 128 (W3 m ρ c (Proc.devRef .tc main_v25)) (W3 m ρ c (Proc.devRef .tc main_v15))
      (W3 m ρ c (Proc.devRef .tc main_arg5)) (W3 m ρ c (Proc.devRef .tc main_arg6))
      (fun q => W3 m ρ c (Proc.devRef .tc main_v26) (ix2 (n0 := 1) (n1 := 128) ⟨0, Nat.one_pos⟩ q)) = _
  rw [W3_agg, W3_node, W3_arg5, W3_arg6, W3_bias]
  rfl
theorem W4_src (c : Dev nD) : W4 m ρ c (Proc.devRef .tc main_v1) = srcVec (aE m c) :=
  (W4_of_ne m ρ c main_v1 (by decide)).trans ((s1_v1 (W2 m ρ c)).trans (W2_src m ρ c))
theorem W4_dst (c : Dev nD) : W4 m ρ c (Proc.devRef .tc main_v3) = dstVec (aE m c) :=
  (W4_of_ne m ρ c main_v3 (by decide)).trans ((s1_v3 (W2 m ρ c)).trans (W2_dst m ρ c))
theorem W4_arg8 (c : Dev nD) : W4 m ρ c (Proc.devRef .tc main_arg8) = aWr2 m c :=
  (W4_of_ne m ρ c main_arg8 (by decide)).trans ((s1_arg8 (W2 m ρ c)).trans (W2_arg8 m ρ c))
theorem W4_arg9 (c : Dev nD) : W4 m ρ c (Proc.devRef .tc main_arg9) = aWs2 m c :=
  (W4_of_ne m ρ c main_arg9 (by decide)).trans ((s1_arg9 (W2 m ρ c)).trans (W2_arg9 m ρ c))
theorem W4_arg10 (c : Dev nD) : W4 m ρ c (Proc.devRef .tc main_arg10) = ab2 m c :=
  (W4_of_ne m ρ c main_arg10 (by decide)).trans ((s1_arg10 (W2 m ρ c)).trans (W2_arg10 m ρ c))

/-! ### Region 2's entry and exit -/

theorem W5_agg (c : Dev nD) : W5 m ρ c (Proc.devRef .tc main_v37) = aggOf (srcVec (aE m c)) (dstVec (aE m c)) (out2 m c) := by
  refine (s2_agg (W4 m ρ c)).trans ?_
  rw [W4_src, W4_dst, W4_out]
theorem W5_bias (c : Dev nD) : W5 m ρ c (Proc.devRef .tc main_v38) = shapeCast S1x40 (ab2 m c) shapeCasts_S40_S1x40 := by
  refine (s2_bias (W4 m ρ c)).trans ?_
  rw [W4_arg10]
theorem W5_node (c : Dev nD) : W5 m ρ c (Proc.devRef .tc main_v27) = out2 m c := (s2_v27 (W4 m ρ c)).trans (W4_out m ρ c)
theorem W5_arg8 (c : Dev nD) : W5 m ρ c (Proc.devRef .tc main_arg8) = aWr2 m c := (s2_arg8 (W4 m ρ c)).trans (W4_arg8 m ρ c)
theorem W5_arg9 (c : Dev nD) : W5 m ρ c (Proc.devRef .tc main_arg9) = aWs2 m c := (s2_arg9 (W4 m ρ c)).trans (W4_arg9 m ρ c)

/-- Region 2 leaves the last layer's output in the result buffer: the result is three composed layers of the arguments. -/
theorem W6_out (c : Dev nD) : W6 m ρ c (Proc.devRef .tc main_v39) = out3 m c := by
  refine (W6_arr m ρ c 5).trans ((arr2 (V5 m ρ) c).trans ?_)
  show DenseLayer.layer 100000 128 40 (W5 m ρ c (Proc.devRef .tc main_v37)) (W5 m ρ c (Proc.devRef .tc main_v27))
      (W5 m ρ c (Proc.devRef .tc main_arg8)) (W5 m ρ c (Proc.devRef .tc main_arg9))
      (fun q => W5 m ρ c (Proc.devRef .tc main_v38) (ix2 (n0 := 1) (n1 := 40) ⟨0, Nat.one_pos⟩ q)) = _
  rw [W5_agg, W5_node, W5_arg8, W5_arg9, W5_bias]
  rfl

end Cert.KernelIdeal.Result

end
-- ==== Proof.ReferenceResult.lean ====
/-
  The reference's result as a function of its arguments.
  Each of its three layers aggregates the node array over the edges (a gather of the rows at the source indices — a
  negative index wrapped by 100000 first — scatter-added onto the rows at the destination indices, from a zero array),
  then adds three arrays: the aggregated array times one weight matrix, the bias broadcast over the rows, and the node
  array times a second weight matrix; the first two layers then take the maximum with a zero array. The aggregation is
  carried as one function, never opened. Read at an index, a layer is the dense layer of the layer module, its three
  summands in another order, and the zero array's entries are 0.
-/
import proofs.«120529_j46170898432062_1_alg».proof.Proof.Gen.ReferenceIdeal.Run
import proofs.«120529_j46170898432062_1_alg».proof.Proof.DenseLayer

set_option maxRecDepth 16384

noncomputable section

open scoped BigOperators

namespace Cert.ReferenceIdeal.Result

open Cert.ReferenceIdeal Cert.ReferenceIdeal.Gen Idealize.ShloMosaic Idealize.ShloMosaic.TcCoe Idealize.ShloMosaic.ValueIdx Idealize.SL.Sem

/-- The source indices: row 0 of the edge array, as a vector. -/
def srcVec (E : IVec S2x1600000 32) : IVec S1600000 32 :=
  shapeCast _ (extractStridedSlice S1x1600000 ![0, 0] E slices_S2x1600000_S1x1600000_0_0) shapeCasts_S1x1600000_S1600000
/-- The destination indices: row 1 of the edge array, as a vector. -/
def dstVec (E : IVec S2x1600000 32) : IVec S1600000 32 :=
  shapeCast _ (extractStridedSlice S1x1600000 ![1, 0] E slices_S2x1600000_S1x1600000_1_0) shapeCasts_S1x1600000_S1600000
/-- The aggregation of a node array over the edges. -/
def aggOf (s d : IVec S1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A 128-column layer before its maximum: product, plus bias, plus product. -/
def dense128 (a h : FVec Ideal S100000x128 .f32) (wr ws : FVec Ideal S128x128 .f32) (b : FVec Ideal S128 .f32) : FVec Ideal S100000x128 .f32 :=
  addf (addf (Host.dotGeneral dot_S100000x128_S128x128_S100000x128_1_0_0_1_n_n none a wr)
      (broadcastInDim S100000x128 ![0, 1] bcast_S1x128_S100000x128_0_1 (broadcastInDim S1x128 ![1] bcast_S128_S1x128_1 b)))
    (Host.dotGeneral dot_S100000x128_S128x128_S100000x128_1_0_0_1_n_n none h ws)
/-- The 40-column layer. -/
def dense40 (a h : FVec Ideal S100000x128 .f32) (wr ws : FVec Ideal S128x40 .f32) (b : FVec Ideal S40 .f32) : FVec Ideal S100000x40 .f32 :=
  addf (addf (Host.dotGeneral dot_S100000x128_S128x40_S100000x40_1_0_0_1_n_n none a wr)
      (broadcastInDim S100000x40 ![0, 1] bcast_S1x40_S100000x40_0_1 (broadcastInDim S1x40 ![1] bcast_S40_S1x40_1 b)))
    (Host.dotGeneral dot_S100000x128_S128x40_S100000x40_1_0_0_1_n_n none h ws)
/-- The maximum with the zero array. -/
def relu (x : FVec Ideal S100000x128 .f32) : FVec Ideal S100000x128 .f32 :=
  maximumf x (broadcastInDim S100000x128 ![] bcast_S_S100000x128 (constant (F := Ideal) S_ .f32 0x00000000#32))

/-- The three layers composed. -/
def result (X : FVec Ideal S100000x128 .f32) (E : IVec S2x1600000 32)
    (Wr0 Ws0 : FVec Ideal S128x128 .f32) (b0 : FVec Ideal S128 .f32)
    (Wr1 Ws1 : FVec Ideal S128x128 .f32) (b1 : FVec Ideal S128 .f32)
    (Wr2 Ws2 : FVec Ideal S128x40 .f32) (b2 : FVec Ideal S40 .f32) : FVec Ideal S100000x40 .f32 :=
  let H1 := relu (dense128 (aggOf (srcVec E) (dstVec E) X) X Wr0 Ws0 b0)
  let H2 := relu (dense128 (aggOf (srcVec E) (dstVec E) H1) H1 Wr1 Ws1 b1)
  dense40 (aggOf (srcVec E) (dstVec E) H2) H2 Wr2 Ws2 b2

/-- The generated run's term is `result` of the argument arrays (the same operations, named). -/
theorem res_eq (m : (ℓ : Loc nD τ sig) → Buf (Elt Ideal) ℓ) (c : Dev nD) :
    Cert.ReferenceIdeal.Value.res_out0 (F := Ideal) m c
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  show Cert.ReferenceIdeal.Value.res_main_v53 (F := Ideal) m c = _
  unfold Cert.ReferenceIdeal.Value.res_main_v53 result dense40 dense128 relu aggOf srcVec dstVec
  rfl

/-- A 128-column layer before its maximum is the dense layer. -/
theorem dense128_eq (a h : FVec Ideal S100000x128 .f32) (wr ws : FVec Ideal S128x128 .f32) (b : FVec Ideal S128 .f32) :
    dense128 a h wr ws b = DenseLayer.layer 100000 128 128 a h wr ws (fun q => b (ix1 (n := 128) q)) :=
  funext fun j => DenseLayer.wholearray_apply 100000 128 128 .single a h wr ws b bcast_S128_S1x128_1 bcast_S1x128_S100000x128_0_1 j

/-- The 40-column layer is the dense layer. -/
theorem dense40_eq (a h : FVec Ideal S100000x128 .f32) (wr ws : FVec Ideal S128x40 .f32) (b : FVec Ideal S40 .f32) :
    dense40 a h wr ws b = DenseLayer.layer 100000 128 40 a h wr ws (fun q => b (ix1 (n := 40) q)) :=
  funext fun j => DenseLayer.wholearray_apply 100000 128 40 .single a h wr ws b bcast_S40_S1x40_1 bcast_S1x40_S100000x40_0_1 j

/-- A 128-column layer with its maximum is the dense layer with the maximum with 0. -/
theorem relu_dense128_eq (a h : FVec Ideal S100000x128 .f32) (wr ws : FVec Ideal S128x128 .f32) (b : FVec Ideal S128 .f32) :
    relu (dense128 a h wr ws b) = DenseLayer.layerRelu 100000 128 128 a h wr ws (fun q => b (ix1 (n := 128) q)) := by
  funext j
  show max (dense128 a h wr ws b j) (broadcastInDim S100000x128 ![] bcast_S_S100000x128 (constant (F := Ideal) S_ .f32 0x00000000#32) j) = max _ 0
  rw [dense128_eq, DenseLayer.scalar_broadcast_apply (t := S100000x128) _ bcast_S_S100000x128 j]
  show max _ (Ideal.ofBits .f32 0x00000000#32) = _
  rw [Ideal.ofBits_zero_f32]

end Cert.ReferenceIdeal.Result

end
-- ==== Proof.lean ====
/-
  The certificate of a three-layer graph convolution.
  Each layer aggregates the node array over the edges — the rows at the (wrapped) source indices, scatter-added onto the
  destination rows — and then forms, row by row, (aggregated · Wr + nodes · Ws) + bias, the first two layers followed by
  the maximum with 0. The kernel program computes the aggregation on the host and the rest in a kernel region per layer,
  20 blocks of 5000 rows each, its matrix products taken on operands narrowed to bf16 (the identity on extended reals);
  the reference computes (aggregated · Wr + bias) + nodes · Ws on whole arrays. At the ideal instance the two agree
  entry by entry: the sum of three extended reals does not depend on their order, and nothing is cancelled, so no
  finiteness of the inputs is used. The aggregation is the same function on both sides and is never opened.
  The frames of the two kernel programs are the generated ones; the reference's is its generated run with the result dropped.
-/
import proofs.«120529_j46170898432062_1_alg».proof.Defs
import proofs.«120529_j46170898432062_1_alg».proof.Proof.Gen.Kernel
import proofs.«120529_j46170898432062_1_alg».proof.Proof.Gen.Kernel.Skeleton
import proofs.«120529_j46170898432062_1_alg».proof.Proof.Gen.Kernel.Launch
import proofs.«120529_j46170898432062_1_alg».proof.Proof.Gen.Kernel.Points
import proofs.«120529_j46170898432062_1_alg».proof.Proof.Gen.Kernel.Frame
import proofs.«120529_j46170898432062_1_alg».proof.Proof.Gen.KernelIdeal
import proofs.«120529_j46170898432062_1_alg».proof.Proof.Gen.KernelIdeal.Skeleton
import proofs.«120529_j46170898432062_1_alg».proof.Proof.Gen.KernelIdeal.Launch
import proofs.«120529_j46170898432062_1_alg».proof.Proof.Gen.KernelIdeal.Points
import proofs.«120529_j46170898432062_1_alg».proof.Proof.Gen.KernelIdeal.Frame
import proofs.«120529_j46170898432062_1_alg».proof.Proof.Gen.ReferenceIdeal
import proofs.«120529_j46170898432062_1_alg».proof.Proof.Gen.ReferenceIdeal.Run
import proofs.«120529_j46170898432062_1_alg».proof.Proof.Gen.Pre_finite_inputs
import proofs.«120529_j46170898432062_1_alg».proof.Proof.KernelNamedRun
import proofs.«120529_j46170898432062_1_alg».proof.Proof.KernelResult
import proofs.«120529_j46170898432062_1_alg».proof.Proof.ReferenceResult
import Idealize.ShloMosaic.Adequacy
import Idealize.ShloMosaic.Init

set_option maxRecDepth 16384

noncomputable section

namespace Cert.Proof

open Idealize.ShloMosaic Idealize.ShloMosaic.ValueIdx Idealize.SL.Sem

/-! ## The two programs compute one function of the arguments -/

/-- The aggregation is spelt with the same operations in both programs. -/
theorem agg_same (s d : IVec Cert.KernelIdeal.S1600000 32) (h : FVec Ideal Cert.KernelIdeal.S100000x128 .f32) :
    Cert.KernelIdeal.Result.aggOf s d h = Cert.ReferenceIdeal.Result.aggOf s d h := rfl
theorem src_same (E : IVec Cert.KernelIdeal.S2x1600000 32) : Cert.KernelIdeal.Result.srcVec E = Cert.ReferenceIdeal.Result.srcVec E := rfl
theorem dst_same (E : IVec Cert.KernelIdeal.S2x1600000 32) : Cert.KernelIdeal.Result.dstVec E = Cert.ReferenceIdeal.Result.dstVec E := rfl

/-- The bias vector read through its reshape to a row is the bias vector. -/
theorem bias128 (b : FVec Ideal Cert.KernelIdeal.S128 .f32) : Cert.KernelIdeal.Result.biasRow128 b = fun q => b (ix1 (n := 128) q) :=
  funext fun q => DenseLayer.reshaped_row_apply 128 b _ q
theorem bias40 (b : FVec Ideal Cert.KernelIdeal.S40 .f32) : Cert.KernelIdeal.Result.biasRow40 b = fun q => b (ix1 (n := 40) q) :=
  funext fun q => DenseLayer.reshaped_row_apply 40 b _ q

/-- The kernel program's three composed layers are the reference's: layer by layer both are the dense layer of the same
    aggregated array, node array, weights and bias. -/
theorem result_eq (X : FVec Ideal Cert.KernelIdeal.S100000x128 .f32) (E : IVec Cert.KernelIdeal.S2x1600000 32)
    (Wr0 Ws0 : FVec Ideal Cert.KernelIdeal.S128x128 .f32) (b0 : FVec Ideal Cert.KernelIdeal.S128 .f32)
    (Wr1 Ws1 : FVec Ideal Cert.KernelIdeal.S128x128 .f32) (b1 : FVec Ideal Cert.KernelIdeal.S128 .f32)
    (Wr2 Ws2 : FVec Ideal Cert.KernelIdeal.S128x40 .f32) (b2 : FVec Ideal Cert.KernelIdeal.S40 .f32) :
    Cert.ReferenceIdeal.Result.result X E Wr0 Ws0 b0 Wr1 Ws1 b1 Wr2 Ws2 b2
      = Cert.KernelIdeal.Result.logits
          (Cert.KernelIdeal.Result.hidden2 (Cert.KernelIdeal.Result.hidden1 X E Wr0 Ws0 b0) E Wr1 Ws1 b1) E Wr2 Ws2 b2 := by
  unfold Cert.ReferenceIdeal.Result.result Cert.KernelIdeal.Result.logits Cert.KernelIdeal.Result.hidden2 Cert.KernelIdeal.Result.hidden1
  simp only [Cert.ReferenceIdeal.Result.relu_dense128_eq, Cert.ReferenceIdeal.Result.dense40_eq, bias128, bias40, agg_same, src_same, dst_same]

/-! ## The claims -/

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result buffer at the three composed layers of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.out3 m c, ?_, ?_⟩
  · exact (θ_run Cert.KernelIdeal.defs _ _).mono
      (fun r h c => ⟨(h c).1.trans (Cert.KernelIdeal.Result.W6_out m ρ c), (h c).2⟩)
      (Cert.KernelIdeal.NamedRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    refine (Cert.ReferenceIdeal.Result.res_eq m' c).trans ?_
    rw [e0, e1, e2, e3, e4, e5, e6, e7, e8, e9, e10]
    exact result_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
